-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x400000 32) (main_arg2 : FVec F S128x128 .f32) (main_arg3 : FVec F S128 .f32) (main_arg4 : FVec F S256x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 64
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S_, .f32⟩
  | .hbm, ⟨20, _⟩ => ⟨S50000x128, .f32⟩
  | .hbm, ⟨21, _⟩ => ⟨S400000x1, .i32⟩
  | .hbm, ⟨22, _⟩ => ⟨S50000x128, .f32⟩
  | .hbm, ⟨23, _⟩ => ⟨S_, .f32⟩
  | .hbm, ⟨24, _⟩ => ⟨S400000x1, .f32⟩
  | .hbm, ⟨25, _⟩ => ⟨S_, .f32⟩
  | .hbm, ⟨26, _⟩ => ⟨S50000x1, .f32⟩
  | .hbm, ⟨27, _⟩ => ⟨S400000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x128, .f32⟩
  | .hbm, ⟨45, _⟩ => ⟨S_, .f32⟩
  | .hbm, ⟨46, _⟩ => ⟨S50000x128, .f32⟩
  | .hbm, ⟨47, _⟩ => ⟨S400000x1, .i32⟩
  | .hbm, ⟨48, _⟩ => ⟨S50000x128, .f32⟩
  | .hbm, ⟨49, _⟩ => ⟨S_, .f32⟩
  | .hbm, ⟨50, _⟩ => ⟨S400000x1, .f32⟩
  | .hbm, ⟨51, _⟩ => ⟨S_, .f32⟩
  | .hbm, ⟨52, _⟩ => ⟨S50000x1, .f32⟩
  | .hbm, ⟨53, _⟩ => ⟨S400000x1, .i32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S128x128, .f32⟩
  | .hbm, ⟨62, _⟩ => ⟨S1x128, .f32⟩
  | .hbm, ⟨63, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x128_S128x128_0_0 : S256x128.Slices ![0, 0] S128x128
  slices_S256x128_S128x128_128_0 : S256x128.Slices ![128, 0] S128x128
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S256x128 : Shape := ⟨2, ![256, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x128 : Shape := ⟨2, ![400000, 128]⟩
abbrev S50000x1 : Shape := ⟨2, ![50000, 1]⟩
abbrev S1x128 : Shape := ⟨2, ![1, 128]⟩
abbrev S50000x256 : Shape := ⟨2, ![50000, 256]⟩
abbrev S50000 : Shape := ⟨1, ![50000]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S256x128, .f32⟩
  | .hbm, ⟨5, _⟩ => ⟨S128, .f32⟩
  | .hbm, ⟨6, _⟩ => ⟨S1x400000, .i32⟩
  | .hbm, ⟨7, _⟩ => ⟨S400000, .i32⟩
  | .hbm, ⟨8, _⟩ => ⟨S1x400000, .i32⟩
  | .hbm, ⟨9, _⟩ => ⟨S400000, .i32⟩
  | .hbm, ⟨10, _⟩ => ⟨S_, .i32⟩
  | .hbm, ⟨11, _⟩ => ⟨S400000, .i32⟩
  | .hbm, ⟨12, _⟩ => ⟨S400000, .i1⟩
  | .hbm, ⟨13, _⟩ => ⟨S_, .i32⟩
  | .hbm, ⟨14, _⟩ => ⟨S400000, .i32⟩
  | .hbm, ⟨15, _⟩ => ⟨S400000, .i32⟩
  | .hbm, ⟨16, _⟩ => ⟨S400000, .i32⟩
  | .hbm, ⟨17, _⟩ => ⟨S400000x1, .i32⟩
  | .hbm, ⟨18, _⟩ => ⟨S400000x128, .f32⟩
  | .hbm, ⟨19, _⟩ => ⟨S_, .f32⟩
  | .hbm, ⟨20, _⟩ => ⟨S50000x128, .f32⟩
  | .hbm, ⟨21, _⟩ => ⟨S400000x1, .i32⟩
  | .hbm, ⟨22, _⟩ => ⟨S50000x128, .f32⟩
  | .hbm, ⟨23, _⟩ => ⟨S_, .f32⟩
  | .hbm, ⟨24, _⟩ => ⟨S400000x1, .f32⟩
  | .hbm, ⟨25, _⟩ => ⟨S_, .f32⟩
  | .hbm, ⟨26, _⟩ => ⟨S50000x1, .f32⟩
  | .hbm, ⟨27, _⟩ => ⟨S400000x1, .i32⟩
  | .hbm, ⟨28, _⟩ => ⟨S50000x1, .f32⟩
  | .hbm, ⟨29, _⟩ => ⟨S_, .f32⟩
  | .hbm, ⟨30, _⟩ => ⟨S50000x1, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x128, .f32⟩
  | .hbm, ⟨50, _⟩ => ⟨S_, .f32⟩
  | .hbm, ⟨51, _⟩ => ⟨S50000x128, .f32⟩
  | .hbm, ⟨52, _⟩ => ⟨S400000x1, .i32⟩
  | .hbm, ⟨53, _⟩ => ⟨S50000x128, .f32⟩
  | .hbm, ⟨54, _⟩ => ⟨S_, .f32⟩
  | .hbm, ⟨55, _⟩ => ⟨S400000x1, .f32⟩
  | .hbm, ⟨56, _⟩ => ⟨S_, .f32⟩
  | .hbm, ⟨57, _⟩ => ⟨S50000x1, .f32⟩
  | .hbm, ⟨58, _⟩ => ⟨S400000x1, .i32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x256, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_v0 : Ref sig .tc := ⟨.hbm, 70, rfl⟩
abbrev main_call1_cst : Ref sig .tc := ⟨.hbm, 71, rfl⟩
abbrev main_call1_v1 : Ref sig .tc := ⟨.hbm, 72, rfl⟩
abbrev main_call1_v2 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S50000x128 : S_.BroadcastsInDim S50000x128 (![] : Fin 0 → Fin S50000x128.rank)
  bcast_S_S400000x1 : S_.BroadcastsInDim S400000x1 (![] : Fin 0 → Fin S400000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  reducesTo_S50000x128_S50000_d1 : S50000x128.ReducesTo [1] S50000
  h_S_ : 0 < S_.numel
  bcast_S50000_S50000x1_0 : S50000.BroadcastsInDim S50000x1 (![0] : Fin 1 → Fin S50000x1.rank)
  gather_S50000x128_S400000x1_S400000x128_1_0_n_n_0_1_1128_wf : GatherDims.WF S50000x128 S400000x1 S400000x128 [1] [0] [] [0] [] 1 ![1, 128]
  scatter_S50000x128_S400000x1_S400000x128_1_0_0_1_wf : ScatterDims.WF S50000x128 S400000x1 S400000x128 [1] [0] [0] 1
  scatter_S50000x1_S400000x1_S400000x1_1_0_0_1_wf : ScatterDims.WF S50000x1 S400000x1 S400000x1 [1] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def scatter_S50000x1_S400000x1_S400000x1_1_0_0_1 : ScatterDims S50000x1 S400000x1 S400000x1 where
  updateWindowDims := [1]
  insertedWindowDims := [0]
  scatterDimsToOperandDims := [0]
  indexVectorDim := 1
  wf := scatter_S50000x1_S400000x1_S400000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layers.lean ====
/-
  The two dense layers of the hypergraph convolution, as functions of whole arrays of extended reals, entry by entry.

  The edge layer sends a [50000, 128] array `h` to `max (h · W + b) 0`: entry (r, j) is the sum over k of
  `h (r, k) * W (k, j)`, plus `b j`, clipped below at zero. The node layer takes two [50000, 128] arrays `x` and `nf`,
  multiplies the row `[x r | nf r]` of 256 entries with a [256, 128] weight, adds a bias, and divides the row by its
  Euclidean norm. A sum over the 256 stacked columns is the sum over the first 128 plus the sum over the last 128
  (`sum_halves`): addition of extended reals is commutative and associative, so no finiteness enters.

  Each layer is written twice: once over the bias as a vector of 128 entries and the weight as one [256, 128] array (the
  form of a plain matrix product), once over the bias as a [1, 128] array and the weight as two [128, 128] halves (the form
  of a computation block by block). `edgeRows_eq` and `nodeRows_eq` say the two forms agree when the pieces do.
-/
import Idealize.ShloMosaic.PureOps.Ideal
import Idealize.ShloMosaic.Lib.ValueIdx
import Mathlib.Algebra.BigOperators.Fin

noncomputable section

namespace Cert.Layers

open Idealize.ShloMosaic Idealize.ShloMosaic.ValueIdx

/-- The shapes of the feature arrays, the square weights, the stacked weight, the bias row and the bias vector. -/
abbrev Feat : Shape := ⟨2, ![50000, 128]⟩
abbrev Sq : Shape := ⟨2, ![128, 128]⟩
abbrev Tall : Shape := ⟨2, ![256, 128]⟩
abbrev Row1 : Shape := ⟨2, ![1, 128]⟩
abbrev Vec128 : Shape := ⟨1, ![128]⟩

/-- The row and the column of an entry of a feature array. -/
abbrev row (i : Feat.Idx) : Fin 50000 := ⟨(i 0).val, (i 0).isLt⟩
abbrev col (i : Feat.Idx) : Fin 128 := ⟨(i 1).val, (i 1).isLt⟩

theorem eq_row_col (i : Feat.Idx) : i = ix2 (row i) (col i) := by
  funext a; match a with | ⟨0, _⟩ => rfl | ⟨1, _⟩ => rfl

/-- Row k of the upper half, and of the lower half, of a weight of 256 rows. -/
def lo (k : Fin 128) : Fin 256 := ⟨k.val, by have := k.isLt; omega⟩
def hi (k : Fin 128) : Fin 256 := ⟨128 + k.val, by have := k.isLt; omega⟩

/-- A sum over 256 indices is the sum over the first 128 plus the sum over the last 128. -/
theorem sum_halves {M : Type*} [AddCommMonoid M] (f : Fin 256 → M) :
    ∑ k : Fin 256, f k = (∑ k : Fin 128, f (lo k)) + ∑ k : Fin 128, f (hi k) := by
  have h := Fin.sum_univ_add (a := 128) (b := 128) (fun i : Fin (128 + 128) => f i)
  refine h.trans ?_
  congr 1

/-! ## The edge layer -/

/-- Entry (r, j) of `h · W + b`. -/
def affine (h : Feat.Idx → EReal) (W : Sq.Idx → EReal) (b : Vec128.Idx → EReal) (r : Fin 50000) (j : Fin 128) : EReal :=
  (∑ k : Fin 128, h (ix2 r k) * W (ix2 k j)) + b (ix1 j)

/-- `max (h · W + b) 0`, entry by entry. -/
def edgeLayer (h : Feat.Idx → EReal) (W : Sq.Idx → EReal) (b : Vec128.Idx → EReal) : Feat.Idx → EReal :=
  fun i => max (affine h W b (row i) (col i)) 0

/-- The same with the bias held as a [1, 128] array. -/
def edgeRows (h : Feat.Idx → EReal) (W : Sq.Idx → EReal) (b2 : Row1.Idx → EReal) : Feat.Idx → EReal :=
  fun i => max ((∑ k : Fin 128, h (ix2 (row i) k) * W (ix2 k (col i))) + b2 (ix2 (0 : Fin 1) (col i))) 0

theorem edgeRows_eq (h : Feat.Idx → EReal) (W : Sq.Idx → EReal) (b2 : Row1.Idx → EReal) (b : Vec128.Idx → EReal)
    (hb : ∀ j : Fin 128, b2 (ix2 (0 : Fin 1) j) = b (ix1 j)) : edgeRows h W b2 = edgeLayer h W b := by
  funext i
  unfold edgeRows edgeLayer affine
  rw [hb]

/-! ## The node layer -/

/-- Entry (r, j) of `[x | nf] · W + b`, the stacked product split into its two halves. -/
def stacked (x nf : Feat.Idx → EReal) (W : Tall.Idx → EReal) (b : Vec128.Idx → EReal) (r : Fin 50000) (j : Fin 128) : EReal :=
  ((∑ k : Fin 128, x (ix2 r k) * W (ix2 (lo k) j)) + ∑ k : Fin 128, nf (ix2 r k) * W (ix2 (hi k) j)) + b (ix1 j)

/-- Each row of `[x | nf] · W + b` divided by its Euclidean norm. -/
def nodeLayer (x nf : Feat.Idx → EReal) (W : Tall.Idx → EReal) (b : Vec128.Idx → EReal) : Feat.Idx → EReal :=
  fun i => Ideal.div (stacked x nf W b (row i) (col i))
    (Ideal.sqrt (∑ j : Fin 128, stacked x nf W b (row i) j * stacked x nf W b (row i) j))

/-- Entry (r, j) of `x · Wx + nf · Wh + b2`, the two halves of the weight given apart and the bias as a [1, 128] array. -/
def twoProducts (x nf : Feat.Idx → EReal) (Wx Wh : Sq.Idx → EReal) (b2 : Row1.Idx → EReal) (r : Fin 50000) (j : Fin 128) : EReal :=
  ((∑ k : Fin 128, x (ix2 r k) * Wx (ix2 k j)) + ∑ k : Fin 128, nf (ix2 r k) * Wh (ix2 k j)) + b2 (ix2 (0 : Fin 1) j)

/-- Each row of `x · Wx + nf · Wh + b2` divided by its Euclidean norm. -/
def nodeRows (x nf : Feat.Idx → EReal) (Wx Wh : Sq.Idx → EReal) (b2 : Row1.Idx → EReal) : Feat.Idx → EReal :=
  fun i => Ideal.div (twoProducts x nf Wx Wh b2 (row i) (col i))
    (Ideal.sqrt (∑ j : Fin 128, twoProducts x nf Wx Wh b2 (row i) j * twoProducts x nf Wx Wh b2 (row i) j))

theorem nodeRows_eq (x nf : Feat.Idx → EReal) (Wx Wh : Sq.Idx → EReal) (b2 : Row1.Idx → EReal)
    (W : Tall.Idx → EReal) (b : Vec128.Idx → EReal)
    (hx : ∀ (k j : Fin 128), Wx (ix2 k j) = W (ix2 (lo k) j)) (hh : ∀ (k j : Fin 128), Wh (ix2 k j) = W (ix2 (hi k) j))
    (hb : ∀ j : Fin 128, b2 (ix2 (0 : Fin 1) j) = b (ix1 j)) : nodeRows x nf Wx Wh b2 = nodeLayer x nf W b := by
  have e : twoProducts x nf Wx Wh b2 = stacked x nf W b := by
    funext r j
    unfold twoProducts stacked
    simp only [hx, hh, hb]
  unfold nodeRows nodeLayer
  rw [e]

end Cert.Layers

end
-- ==== Proof.BlockBodies.lean ====
/-
  The two dense blocks of the hypergraph convolution, read entry by entry over the extended reals.

  A block holds 5000 rows of 128 features. The edge block multiplies it with a [128, 128] weight, adds a bias row to
  every row and clips below at zero: entry (r, j) is max (∑ k, h (r, k) * W (k, j) + b (0, j)) 0. The node block
  multiplies two such blocks with a weight each, adds the two products and the bias row, and divides every row by its
  Euclidean norm: with p (r, j) the entry before the division, entry (r, j) is p (r, j) / sqrt (∑ j', p (r, j') * p (r, j')).
  Over the extended reals the narrowing of the operands to 16 bits is the identity and the accumulation starts from
  the real number zero, so each product entry is the plain sum of 128 products.
-/
import proofs.«153247_j10376640987275_1_alg».proof.Proof.Gen.KernelIdeal.Skeleton
import proofs.«153247_j10376640987275_1_alg».proof.Proof.Layers
import Idealize.ShloMosaic.PureOps.Ideal.Laws
import Idealize.ShloMosaic.Lib.Pipeline.Value
import Idealize.ShloMosaic.Lib.ValueLayout

noncomputable section
namespace Cert.KernelIdeal.Body
open Cert.KernelIdeal Cert.KernelIdeal.Gen Idealize.ShloMosaic Idealize.ShloMosaic.ValueIdx

/-! ## The product of a [5000, 128] block with a [128, 128] weight, read at an entry -/

/-- The row coordinate of the left operand's entry is the output's row. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The column coordinate of the left operand's entry is the summation index. -/
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The row coordinate of the right operand's entry is the summation index. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The column coordinate of the right operand's entry is the output's column. -/
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (r, j) of the product accumulated into the zero block is the sum over k of a (r, k) * b (k, j). -/
theorem mm_apply (a : FVec Ideal S5000x128 .bf16) (b : FVec Ideal S128x128 .bf16) (r : Fin 5000) (j : Fin 128) :
    matmul dot_S5000x128_S128x128_S5000x128_1_0_0_1_n_n none a b (constant S5000x128 .f32 0x00000000#32) (ix2 r j)
      = ∑ k : Fin 128, a (ix2 r k) * b (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The edge block -/

/-- Entry (r, j) of the edge block: the product's entry plus the bias row's entry j, clipped below at zero. -/
theorem edge_pay (x0 : Vec Ideal S5000x128 .f32) (x3 : Vec Ideal S128x128 .f32) (x6 : Vec Ideal S1x128 .f32) (r : Fin 5000) (j : Fin 128) :
    k0_pay1 (F := Ideal) x0 x3 x6 (ix2 r j) = max ((∑ k : Fin 128, x0 (ix2 r k) * x3 (ix2 k j)) + x6 (ix2 (0 : Fin 1) j)) 0 := by
  unfold k0_pay1
  show max (matmul (F := Ideal) dot_S5000x128_S128x128_S5000x128_1_0_0_1_n_n none
        (truncf .bf16 (shapeCast S5000x128 x0 shapeCasts_S5000x128_S5000x128) bitsLt_bf16_f32) (truncf .bf16 x3 bitsLt_bf16_f32)
        (constant S5000x128 .f32 0x00000000#32) (ix2 r j)
      + broadcastTo S5000x128 (shapeCast S1x128 x6 shapeCasts_S1x128_S1x128) broadcasts_S1x128_S5000x128 (ix2 r j))
      (Ideal.ofBits .f32 0x00000000#32) = _
  rw [shapeCast_self, shapeCast_self, mm_apply, broadcastTo_1b_ab_apply, Ideal.ofBits_zero_f32]
  rfl

/-! ## The node block -/

/-- An [a, 1] column broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of a [5000, 128] block along its rows: entry r is the sum over the 128 columns of row r. -/
theorem rowSum_apply (v : FVec Ideal S5000x128 .f32) (r : Fin 5000) :
    multiReduction (F := Ideal) .add [1] S5000 v 0x00000000#32 reduces_S5000x128_S5000 (.inl rfl) rfl (ix1 r)
      = ∑ k : Fin 128, v (ix2 r k) := by
  refine (Ideal.multiReduction_add_single _ _ _ _ _ _).trans ?_
  refine Finset.sum_congr rfl fun k _ => congrArg v ?_
  funext c
  match c with
  | ⟨0, _⟩ => rfl
  | ⟨1, _⟩ => rfl

/-- The block before the division: the two products added, plus the bias row on every row. -/
def preVec (x0 x2 : Vec Ideal S5000x128 .f32) (x5 x8 : Vec Ideal S128x128 .f32) (x14 : Vec Ideal S1x128 .f32) : FVec Ideal S5000x128 .f32 :=
  addf
    (addf
      (matmul dot_S5000x128_S128x128_S5000x128_1_0_0_1_n_n none (truncf .bf16 x0 bitsLt_bf16_f32)
        (truncf .bf16 (shapeCast S128x128 x5 shapeCasts_S128x128_S128x128) bitsLt_bf16_f32) (constant S5000x128 .f32 0x00000000#32))
      (matmul dot_S5000x128_S128x128_S5000x128_1_0_0_1_n_n none
        (truncf .bf16 (shapeCast S5000x128 x2 shapeCasts_S5000x128_S5000x128) bitsLt_bf16_f32)
        (truncf .bf16 (shapeCast S128x128 x8 shapeCasts_S128x128_S128x128) bitsLt_bf16_f32) (constant S5000x128 .f32 0x00000000#32)))
    (broadcastTo S5000x128 (shapeCast S1x128 x14 shapeCasts_S1x128_S1x128) broadcasts_S1x128_S5000x128)

/-- Entry (r, j) of the node block before the division, written over the entries of the five operands. -/
def blockPre (x0 x2 : Vec Ideal S5000x128 .f32) (x5 x8 : Vec Ideal S128x128 .f32) (x14 : Vec Ideal S1x128 .f32) (r : Fin 5000) (j : Fin 128) : EReal :=
  ((∑ k : Fin 128, x0 (ix2 r k) * x5 (ix2 k j)) + ∑ k : Fin 128, x2 (ix2 r k) * x8 (ix2 k j)) + x14 (ix2 (0 : Fin 1) j)

/-- The block before the division read at (r, j). -/
theorem preVec_apply (x0 x2 : Vec Ideal S5000x128 .f32) (x5 x8 : Vec Ideal S128x128 .f32) (x14 : Vec Ideal S1x128 .f32) (r : Fin 5000) (j : Fin 128) :
    preVec x0 x2 x5 x8 x14 (ix2 r j) = blockPre x0 x2 x5 x8 x14 r j := by
  unfold preVec blockPre
  rw [addf_apply, addf_apply, mm_apply, mm_apply, broadcastTo_1b_ab_apply, shapeCast_self, shapeCast_self, shapeCast_self, shapeCast_self]
  rfl

/-- The node block's payload is the block before the division, divided by the square root of its row sums of squares
    held as a column and spread over the 128 columns. -/
theorem k1_pay1_eq (x0 x2 : Vec Ideal S5000x128 .f32) (x5 x8 : Vec Ideal S128x128 .f32) (x14 : Vec Ideal S1x128 .f32) :
    k1_pay1 (F := Ideal) x0 x2 x5 x8 x14
      = divf (preVec x0 x2 x5 x8 x14)
          (broadcastTo S5000x128
            (sqrt (shapeCast S5000x1
              (multiReduction (F := Ideal) .add [1] S5000 (mulf (preVec x0 x2 x5 x8 x14) (preVec x0 x2 x5 x8 x14)) 0x00000000#32
                reduces_S5000x128_S5000 (.inl rfl) rfl)
              shapeCasts_S5000_S5000x1))
            broadcasts_S5000x1_S5000x128) := rfl

/-- Entry (r, j) of the node block: the entry before the division over the Euclidean norm of row r. -/
theorem node_pay (x0 x2 : Vec Ideal S5000x128 .f32) (x5 x8 : Vec Ideal S128x128 .f32) (x14 : Vec Ideal S1x128 .f32) (r : Fin 5000) (j : Fin 128) :
    k1_pay1 (F := Ideal) x0 x2 x5 x8 x14 (ix2 r j)
      = Ideal.div (blockPre x0 x2 x5 x8 x14 r j) (Ideal.sqrt (∑ j' : Fin 128, blockPre x0 x2 x5 x8 x14 r j' * blockPre x0 x2 x5 x8 x14 r j')) := by
  rw [k1_pay1_eq, divf_apply, broadcastTo_a1_ab_apply, preVec_apply]
  show Ideal.div _ (Ideal.sqrt (shapeCast S5000x1 _ shapeCasts_S5000_S5000x1 (ix2 r (0 : Fin 1)))) = _
  rw [shapeCast_a_a1_apply, rowSum_apply]
  simp only [mulf_apply, preVec_apply]

end Cert.KernelIdeal.Body
end
-- ==== Proof.EdgeRegion.lean ====
/-
  What the first dense region leaves in its output array, as one function of the arrays it reads.

  The region runs over ten grid points. At point t the body reads rows 5000 t … 5000 t + 4999 of the [50000, 128] input
  (the whole weight and the whole bias row at every point) and writes the same rows of the output. An entry (r, j) of the
  block it writes depends on row r of the input block alone, so block t of the output is block t of the whole-array edge
  layer; the ten blocks tile the array (row p lies in block p / 5000), hence the array ends as the edge layer of the inputs.
-/
import proofs.«153247_j10376640987275_1_alg».proof.Proof.Gen.KernelIdeal.Frame
import proofs.«153247_j10376640987275_1_alg».proof.Proof.BlockBodies
import proofs.«153247_j10376640987275_1_alg».proof.Proof.Layers
import Idealize.ShloMosaic.Lib.Pipeline.Value

set_option maxRecDepth 16384

noncomputable section

namespace Cert.KernelIdeal.Edge

open Cert.KernelIdeal Cert.KernelIdeal.Gen Cert.Layers Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block indices at a grid point: the input and the output move with the point along the rows; the weight and the
    bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of the block written at point q: if the input block holds rows 5000 q … of `h`, and the other two blocks the
    weight and the bias row, the entry at local index y is the edge layer of the whole arrays at row 5000 q + y 0. -/
theorem entry_eq (x0 : Vec Ideal S5000x128 .f32) (x3 : Vec Ideal S128x128 .f32) (x6 : Vec Ideal S1x128 .f32)
    (h : Feat.Idx → EReal) (W : Sq.Idx → EReal) (b2 : Row1.Idx → EReal) (q : ℕ) (hq : q < 10)
    (hx : ∀ (r : Fin 5000) (k : Fin 128), x0 (ix2 r k) = h (ix2 ⟨q * 5000 + r.val, by have := r.isLt; omega⟩ k))
    (hw : ∀ (k j : Fin 128), x3 (ix2 k j) = W (ix2 k j))
    (hb : ∀ j : Fin 128, x6 (ix2 (0 : Fin 1) j) = b2 (ix2 (0 : Fin 1) j))
    (y : S5000x128.Idx) (i : Feat.Idx) (hi0 : (i 0).val = q * 5000 + (y 0).val) (hi1 : (i 1).val = (y 1).val) :
    k0_pay1 (F := Ideal) x0 x3 x6 y = edgeRows h W b2 i := by
  have h0 : (y 0).val < 5000 := (y 0).isLt
  have ey : y = ix2 (⟨(y 0).val, (y 0).isLt⟩ : Fin 5000) (⟨(y 1).val, (y 1).isLt⟩ : Fin 128) := by
    funext a; match a with | ⟨0, _⟩ => rfl | ⟨1, _⟩ => rfl
  have er : row i = ⟨q * 5000 + (y 0).val, by omega⟩ := Fin.ext hi0
  have ec : col i = ⟨(y 1).val, (y 1).isLt⟩ := Fin.ext hi1
  rw [ey, Body.edge_pay]
  unfold edgeRows
  rw [er, ec]
  simp only [hx, hw, hb]

/-- What point t writes back is block t of the edge layer of the arrays as the region finds them. -/
theorem flushed_eq (c : Dev nD) (t : Fin cfg0.N) :
    (dat0 V c).flushed 3 t
      = ((cfg0.win 3).blk t).view.read (Elt Ideal) (edgeRows (V c main_v21) (V c main_arg2) (V c main_v22)) := by
  show (cfg0.win 3).cut (grid0.coords t) ((dat0 V c).after 3 t) = _
  rw [after0_3]
  unfold out0_3
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31⟩ := block_indices t
  have ht : t.val < 10 := t.isLt
  funext y
  show k0_pay1 (F := Ideal) (iblk0 V c 0 t) (iblk0 V c 1 t) (iblk0 V c 2 t) y
    = edgeRows (V c main_v21) (V c main_arg2) (V c main_v22) (((cfg0.win 3).blk t).view.emb y)
  refine entry_eq (iblk0 V c 0 t) (iblk0 V c 1 t) (iblk0 V c 2 t) (V c main_v21) (V c main_arg2) (V c main_v22) t.val ht
    ?_ ?_ ?_ y (((cfg0.win 3).blk t).view.emb y) ?_ ?_
  · intro r k
    show V c main_v21 (((cfg0.win 0).blk t).view.emb (ix2 r k)) = _
    refine congrArg (V c main_v21) (funext fun a => Fin.ext ?_)
    match a with
    | ⟨0, _⟩ => show win0_0.index t (0 : Fin 2) * 5000 + 1 * r.val = t.val * 5000 + r.val; omega
    | ⟨1, _⟩ => show win0_0.index t (1 : Fin 2) * 128 + 1 * k.val = k.val; omega
  · intro k j
    show V c main_arg2 (((cfg0.win 1).blk t).view.emb (ix2 k j)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * j.val = j.val; omega
  · intro j
    show V c main_v22 (((cfg0.win 2).blk t).view.emb (ix2 (0 : Fin 1) j)) = _
    refine congrArg (V c main_v22) (funext fun a => Fin.ext ?_)
    match a with
    | ⟨0, _⟩ => show win0_2.index t (0 : Fin 2) * 1 + 1 * 0 = 0; omega
    | ⟨1, _⟩ => show win0_2.index t (1 : Fin 2) * 128 + 1 * j.val = j.val; omega
  · show win0_3.index t (0 : Fin 2) * 5000 + 1 * (y 0).val = t.val * 5000 + (y 0).val; omega
  · show win0_3.index t (1 : Fin 2) * 128 + 1 * (y 1).val = (y 1).val; omega

/-- An index of the output array lies in point t's block iff each coordinate lies in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Row p of the output lies in the block of point p / 5000: the ten blocks cover the array. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 5000 < 10 := by omega
  obtain ⟨-, -, -, -, -, -, e30, e31⟩ := block_indices ⟨(i 0).val / 5000, hlt⟩
  refine ⟨⟨(i 0).val / 5000, hlt⟩, flush0_3 _, ?_⟩
  rw [mem_block]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e31]; omega

/-- The output array after the region: the edge layer of the arrays the region finds. -/
theorem final (c : Dev nD) :
    (dat0 V c).arrAt 3 cfg0.N = edgeRows (V c main_v21) (V c main_arg2) (V c main_v22) :=
  (dat0 V c).arrAt_eq_of_cover 3 _ (fun t _ => flushed_eq V c t) covered

end Cert.KernelIdeal.Edge

end
-- ==== Proof.NodeRegion.lean ====
/-
  What the second dense region leaves in its output array, as one function of the arrays it reads.

  The region runs over ten grid points. At point t the body reads rows 5000 t … 5000 t + 4999 of the two [50000, 128]
  inputs (the two square weights and the bias row whole at every point) and writes the same rows of the output. An entry
  (r, j) of the block it writes depends on row r of the two input blocks alone — the row of the two matrix products plus
  the bias, divided by the square root of the sum of its squares — so block t of the output is block t of the whole-array
  node layer; the ten blocks tile the array (row p lies in block p / 5000), hence the array ends as the node layer of the inputs.
-/
import proofs.«153247_j10376640987275_1_alg».proof.Proof.Gen.KernelIdeal.Frame
import proofs.«153247_j10376640987275_1_alg».proof.Proof.BlockBodies
import proofs.«153247_j10376640987275_1_alg».proof.Proof.Layers
import Idealize.ShloMosaic.Lib.Pipeline.Value

set_option maxRecDepth 16384

noncomputable section

namespace Cert.KernelIdeal.Node

open Cert.KernelIdeal Cert.KernelIdeal.Gen Cert.Layers Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The block indices at a grid point: the two inputs and the output move with the point along the rows; the two weights
    and the bias row stay. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of the block written at point q: if the two input blocks hold rows 5000 q … of `x` and `nf`, and the other
    three blocks the two weights and the bias row, the entry at local index y is the node layer of the whole arrays at row
    5000 q + y 0. -/
theorem entry_eq (x0 x2 : Vec Ideal S5000x128 .f32) (x5 x8 : Vec Ideal S128x128 .f32) (x14 : Vec Ideal S1x128 .f32)
    (x nf : Feat.Idx → EReal) (Wx Wh : Sq.Idx → EReal) (b2 : Row1.Idx → EReal) (q : ℕ) (hq : q < 10)
    (hx : ∀ (r : Fin 5000) (k : Fin 128), x0 (ix2 r k) = x (ix2 ⟨q * 5000 + r.val, by have := r.isLt; omega⟩ k))
    (hn : ∀ (r : Fin 5000) (k : Fin 128), x2 (ix2 r k) = nf (ix2 ⟨q * 5000 + r.val, by have := r.isLt; omega⟩ k))
    (hwx : ∀ (k j : Fin 128), x5 (ix2 k j) = Wx (ix2 k j)) (hwh : ∀ (k j : Fin 128), x8 (ix2 k j) = Wh (ix2 k j))
    (hb : ∀ j : Fin 128, x14 (ix2 (0 : Fin 1) j) = b2 (ix2 (0 : Fin 1) j))
    (y : S5000x128.Idx) (i : Feat.Idx) (hi0 : (i 0).val = q * 5000 + (y 0).val) (hi1 : (i 1).val = (y 1).val) :
    k1_pay1 (F := Ideal) x0 x2 x5 x8 x14 y = nodeRows x nf Wx Wh b2 i := by
  have h0 : (y 0).val < 5000 := (y 0).isLt
  have ey : y = ix2 (⟨(y 0).val, (y 0).isLt⟩ : Fin 5000) (⟨(y 1).val, (y 1).isLt⟩ : Fin 128) := by
    funext a; match a with | ⟨0, _⟩ => rfl | ⟨1, _⟩ => rfl
  have er : row i = ⟨q * 5000 + (y 0).val, by omega⟩ := Fin.ext hi0
  have ec : col i = ⟨(y 1).val, (y 1).isLt⟩ := Fin.ext hi1
  have hp : ∀ j : Fin 128, Body.blockPre x0 x2 x5 x8 x14 (⟨(y 0).val, (y 0).isLt⟩ : Fin 5000) j
      = twoProducts x nf Wx Wh b2 ⟨q * 5000 + (y 0).val, by omega⟩ j := by
    intro j
    unfold Body.blockPre twoProducts
    simp only [hx, hn, hwx, hwh, hb]
  rw [ey, Body.node_pay]
  unfold nodeRows
  rw [er, ec]
  simp only [hp]

/-- What point t writes back is block t of the node layer of the arrays as the region finds them. -/
theorem flushed_eq (c : Dev nD) (t : Fin cfg1.N) :
    (dat1 V c).flushed 5 t
      = ((cfg1.win 5).blk t).view.read (Elt Ideal)
          (nodeRows (V c main_arg0) (V c main_v41) (V c main_v42) (V c main_v43) (V c main_v44)) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  obtain ⟨e00, e01, e10, e11, e20, e21, e30, e31, e40, e41, e50, e51⟩ := block_indices t
  have ht : t.val < 10 := t.isLt
  funext y
  show k1_pay1 (F := Ideal) (iblk1 V c 0 t) (iblk1 V c 1 t) (iblk1 V c 2 t) (iblk1 V c 3 t) (iblk1 V c 4 t) y
    = nodeRows (V c main_arg0) (V c main_v41) (V c main_v42) (V c main_v43) (V c main_v44) (((cfg1.win 5).blk t).view.emb y)
  refine entry_eq (iblk1 V c 0 t) (iblk1 V c 1 t) (iblk1 V c 2 t) (iblk1 V c 3 t) (iblk1 V c 4 t)
    (V c main_arg0) (V c main_v41) (V c main_v42) (V c main_v43) (V c main_v44) t.val ht
    ?_ ?_ ?_ ?_ ?_ y (((cfg1.win 5).blk t).view.emb y) ?_ ?_
  · intro r k
    show V c main_arg0 (((cfg1.win 0).blk t).view.emb (ix2 r k)) = _
    refine congrArg (V c main_arg0) (funext fun a => Fin.ext ?_)
    match a with
    | ⟨0, _⟩ => show win1_0.index t (0 : Fin 2) * 5000 + 1 * r.val = t.val * 5000 + r.val; omega
    | ⟨1, _⟩ => show win1_0.index t (1 : Fin 2) * 128 + 1 * k.val = k.val; omega
  · intro r k
    show V c main_v41 (((cfg1.win 1).blk t).view.emb (ix2 r k)) = _
    refine congrArg (V c main_v41) (funext fun a => Fin.ext ?_)
    match a with
    | ⟨0, _⟩ => show win1_1.index t (0 : Fin 2) * 5000 + 1 * r.val = t.val * 5000 + r.val; omega
    | ⟨1, _⟩ => show win1_1.index t (1 : Fin 2) * 128 + 1 * k.val = k.val; omega
  · intro k j
    show V c main_v42 (((cfg1.win 2).blk t).view.emb (ix2 k j)) = _
    refine congrArg (V c main_v42) (funext fun a => Fin.ext ?_)
    match a with
    | ⟨0, _⟩ => show win1_2.index t (0 : Fin 2) * 128 + 1 * k.val = k.val; omega
    | ⟨1, _⟩ => show win1_2.index t (1 : Fin 2) * 128 + 1 * j.val = j.val; omega
  · intro k j
    show V c main_v43 (((cfg1.win 3).blk t).view.emb (ix2 k j)) = _
    refine congrArg (V c main_v43) (funext fun a => Fin.ext ?_)
    match a with
    | ⟨0, _⟩ => show win1_3.index t (0 : Fin 2) * 128 + 1 * k.val = k.val; omega
    | ⟨1, _⟩ => show win1_3.index t (1 : Fin 2) * 128 + 1 * j.val = j.val; omega
  · intro j
    show V c main_v44 (((cfg1.win 4).blk t).view.emb (ix2 (0 : Fin 1) j)) = _
    refine congrArg (V c main_v44) (funext fun a => Fin.ext ?_)
    match a with
    | ⟨0, _⟩ => show win1_4.index t (0 : Fin 2) * 1 + 1 * 0 = 0; omega
    | ⟨1, _⟩ => show win1_4.index t (1 : Fin 2) * 128 + 1 * j.val = j.val; omega
  · show win1_5.index t (0 : Fin 2) * 5000 + 1 * (y 0).val = t.val * 5000 + (y 0).val; omega
  · show win1_5.index t (1 : Fin 2) * 128 + 1 * (y 1).val = (y 1).val; omega

/-- An index of the output array lies in point t's block iff each coordinate lies in the block's range on its axis. -/
theorem mem_block (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Row p of the output lies in the block of point p / 5000: the ten blocks cover the array. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < 10 := by omega
  obtain ⟨-, -, -, -, -, -, -, -, -, -, e50, e51⟩ := block_indices ⟨(i 0).val / 5000, hlt⟩
  refine ⟨⟨(i 0).val / 5000, hlt⟩, flush1_5 _, ?_⟩
  rw [mem_block]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e51]; omega

/-- The output array after the region: the node layer of the arrays the region finds. -/
theorem final (c : Dev nD) :
    (dat1 V c).arrAt 5 cfg1.N
      = nodeRows (V c main_arg0) (V c main_v41) (V c main_v42) (V c main_v43) (V c main_v44) :=
  (dat1 V c).arrAt_eq_of_cover 5 _ (fun t _ => flushed_eq V c t) covered

end Cert.KernelIdeal.Node

end
-- ==== Proof.Whole.lean ====
/-
  The result array of the whole program, as one function of its six arguments.

  Between the two dense regions the program runs the same chain of gather, scatter-add and division twice: it gathers the
  rows of a [50000, 128] array named by one row of the id array (a negative id wrapped by 50000), adds them into the
  rows named by the other id row, and divides each row by the number of contributions clipped below at one. The chain is
  kept as ONE function (`segMean`) of the array and the two id rows and is never opened: the reference applies the very
  same operations, so only the arrays going in have to agree.

  The first region enters with the segment mean of the argument `x`, the edge weight and the bias reshaped to a row; it
  leaves the edge layer of them. The second enters with `x`, the segment mean of that edge layer (the id rows swapped),
  the two halves of the node weight (rows 0–127 and rows 128–255) and the node bias reshaped to a row; it leaves the node
  layer of them, which is the result.
-/
import proofs.«153247_j10376640987275_1_alg».proof.Proof.Gen.KernelIdeal.Frame
import proofs.«153247_j10376640987275_1_alg».proof.Proof.EdgeRegion
import proofs.«153247_j10376640987275_1_alg».proof.Proof.NodeRegion
import proofs.«153247_j10376640987275_1_alg».proof.Proof.Layers
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.Layers Idealize.ShloMosaic Idealize.ShloMosaic.TcCoe Idealize.SL.Sem
open Idealize.ShloMosaic.StableHlo Idealize.ShloMosaic.ValueIdx

section Chain

variable {F : FTy → Type} [FloatOps F]

/-- Row 0 and row 1 of the [2, 400000] id array, each as a vector of 400000 ids. -/
def idRow0 (e : IVec S2x400000 32) : IVec S400000 32 :=
  shapeCast S400000 (extractStridedSlice S1x400000 ![0, 0] e slices_S2x400000_S1x400000_0_0) shapeCasts_S1x400000_S400000
def idRow1 (e : IVec S2x400000 32) : IVec S400000 32 :=
  shapeCast S400000 (extractStridedSlice S1x400000 ![1, 0] e slices_S2x400000_S1x400000_1_0) shapeCasts_S1x400000_S400000

/-- The mean over segments: the rows of `a` named by `take` (a negative id wrapped by 50000) are added into the rows named
    by `seg`, and each row is divided by its number of contributions, clipped below at one. -/
def segMean (a : FVec F S50000x128 .f32) (take seg : IVec S400000 32) : FVec F S50000x128 .f32 :=
  Host.divf
    (Host.scatterAdd scatter_S50000x128_S400000x1_S400000x128_1_0_0_1
      (broadcastInDim S50000x128 ![] bcast_S_S50000x128 (constant (F := F) S_ .f32 0x00000000#32))
      (broadcastInDim S400000x1 ![0] bcast_S400000_S400000x1_0 seg)
      (Host.gather gather_S50000x128_S400000x1_S400000x128_1_0_n_n_0_1_1128 a
        (broadcastInDim S400000x1 ![0] bcast_S400000_S400000x1_0
          (select (cmpi .slt take (broadcastInDim S400000 ![] bcast_S_S400000 (constantI S_ 32 0#32)))
            (addi take (broadcastInDim S400000 ![] bcast_S_S400000 (constantI S_ 32 50000#32))) take))))
    (broadcastInDim S50000x128 ![0, 1] bcast_S50000x1_S50000x128_0_1
      (maximumf
        (Host.scatterAdd scatter_S50000x1_S400000x1_S400000x1_1_0_0_1
          (broadcastInDim S50000x1 ![] bcast_S_S50000x1 (constant (F := F) S_ .f32 0x00000000#32))
          (broadcastInDim S400000x1 ![0] bcast_S400000_S400000x1_0 seg)
          (broadcastInDim S400000x1 ![] bcast_S_S400000x1 (constant (F := F) S_ .f32 0x3F800000#32)))
        (broadcastInDim S50000x1 ![] bcast_S_S50000x1 (constant (F := F) S_ .f32 0x3F800000#32))))

end Chain

variable (m : (ℓ : Loc nD τ sig) → Buf (Elt Ideal) ℓ) (ρ : Dev nD → PrngReg)

/-! ## The first host stretch: what the first region finds -/

set_option maxHeartbeats 8000000 in
theorem entry0_feat (c : Dev nD) :
    V1 m ρ c main_v21 = segMean (F := Ideal) (m ((c : Thread nD τ).loc main_arg0)) (idRow1 (m ((c : Thread nD τ).loc main_arg1)))
      (idRow0 (m ((c : Thread nD τ).loc main_arg1))) := by
  show StableHlo.after hostOps0 (W0 m ρ c) (Proc.devRef .tc main_v21) = _
  simp only [hostOps0]
  after_results_simp <;> rfl

set_option maxHeartbeats 8000000 in
theorem entry0_weight (c : Dev nD) : V1 m ρ c main_arg2 = m ((c : Thread nD τ).loc main_arg2) := by
  show StableHlo.after hostOps0 (W0 m ρ c) (Proc.devRef .tc main_arg2) = _
  simp only [hostOps0]
  after_results_simp <;> rfl

set_option maxHeartbeats 8000000 in
theorem entry0_bias (c : Dev nD) :
    V1 m ρ c main_v22 = shapeCast S1x128 (m ((c : Thread nD τ).loc main_arg3)) shapeCasts_S128_S1x128 := by
  show StableHlo.after hostOps0 (W0 m ρ c) (Proc.devRef .tc main_v22) = _
  simp only [hostOps0]
  after_results_simp <;> rfl

set_option maxHeartbeats 8000000 in
theorem first_ids0 (c : Dev nD) : W1 m ρ c (Proc.devRef .tc main_v1) = idRow0 (m ((c : Thread nD τ).loc main_arg1)) := by
  show StableHlo.after hostOps0 (W0 m ρ c) (Proc.devRef .tc main_v1) = _
  simp only [hostOps0]
  after_results_simp <;> rfl

set_option maxHeartbeats 8000000 in
theorem first_ids1 (c : Dev nD) : W1 m ρ c (Proc.devRef .tc main_v3) = idRow1 (m ((c : Thread nD τ).loc main_arg1)) := by
  show StableHlo.after hostOps0 (W0 m ρ c) (Proc.devRef .tc main_v3) = _
  simp only [hostOps0]
  after_results_simp <;> rfl

set_option maxHeartbeats 8000000 in
theorem first_arg0 (c : Dev nD) : W1 m ρ c (Proc.devRef .tc main_arg0) = m ((c : Thread nD τ).loc main_arg0) := by
  show StableHlo.after hostOps0 (W0 m ρ c) (Proc.devRef .tc main_arg0) = _
  simp only [hostOps0]
  after_results_simp <;> rfl

set_option maxHeartbeats 8000000 in
theorem first_arg4 (c : Dev nD) : W1 m ρ c (Proc.devRef .tc main_arg4) = m ((c : Thread nD τ).loc main_arg4) := by
  show StableHlo.after hostOps0 (W0 m ρ c) (Proc.devRef .tc main_arg4) = _
  simp only [hostOps0]
  after_results_simp <;> rfl

set_option maxHeartbeats 8000000 in
theorem first_arg5 (c : Dev nD) : W1 m ρ c (Proc.devRef .tc main_arg5) = m ((c : Thread nD τ).loc main_arg5) := by
  show StableHlo.after hostOps0 (W0 m ρ c) (Proc.devRef .tc main_arg5) = _
  simp only [hostOps0]
  after_results_simp <;> rfl

/-! ## The first region -/

/-- The bias reshaped to a row, read at column j, is entry j of the bias. -/
theorem row_of_vec (b : FVec Ideal S128 .f32) (j : Fin 128) :
    shapeCast S1x128 b shapeCasts_S128_S1x128 (ix2 (0 : Fin 1) j) = b (ix1 j) :=
  (shapeCast_addUnit_apply ![128] b shapeCasts_S128_S1x128 (ix2 (0 : Fin 1) j)).trans
    (congrArg b (funext fun a => by match a with | ⟨0, _⟩ => rfl))

/-- The first region leaves the edge layer of the segment mean of `x`. -/
theorem edge_out (c : Dev nD) :
    W2 m ρ c (Proc.devRef .tc main_v23)
      = edgeLayer (segMean (F := Ideal) (m ((c : Thread nD τ).loc main_arg0)) (idRow1 (m ((c : Thread nD τ).loc main_arg1)))
          (idRow0 (m ((c : Thread nD τ).loc main_arg1))))
        (m ((c : Thread nD τ).loc main_arg2)) (m ((c : Thread nD τ).loc main_arg3)) := by
  refine (W2_arr m ρ c 3).trans ((Edge.final (V1 m ρ) c).trans ?_)
  rw [entry0_feat, entry0_weight, entry0_bias]
  exact edgeRows_eq _ _ _ _ (row_of_vec _)

/-! ## The second host stretch: what the second region finds -/

set_option maxHeartbeats 8000000 in
theorem entry1_mean (c : Dev nD) :
    V3 m ρ c main_v41 = segMean (F := Ideal) (W2 m ρ c (Proc.devRef .tc main_v23)) (W2 m ρ c (Proc.devRef .tc main_v1))
      (W2 m ρ c (Proc.devRef .tc main_v3)) := by
  show StableHlo.after hostOps1 (W2 m ρ c) (Proc.devRef .tc main_v41) = _
  simp only [hostOps1]
  after_results_simp <;> rfl

set_option maxHeartbeats 8000000 in
theorem entry1_x (c : Dev nD) : V3 m ρ c main_arg0 = W2 m ρ c (Proc.devRef .tc main_arg0) := by
  show StableHlo.after hostOps1 (W2 m ρ c) (Proc.devRef .tc main_arg0) = _
  simp only [hostOps1]
  after_results_simp <;> rfl

set_option maxHeartbeats 8000000 in
theorem entry1_upper (c : Dev nD) :
    V3 m ρ c main_v42 = extractStridedSlice S128x128 ![0, 0] (W2 m ρ c (Proc.devRef .tc main_arg4)) slices_S256x128_S128x128_0_0 := by
  show StableHlo.after hostOps1 (W2 m ρ c) (Proc.devRef .tc main_v42) = _
  simp only [hostOps1]
  after_results_simp <;> rfl

set_option maxHeartbeats 8000000 in
theorem entry1_lower (c : Dev nD) :
    V3 m ρ c main_v43 = extractStridedSlice S128x128 ![128, 0] (W2 m ρ c (Proc.devRef .tc main_arg4)) slices_S256x128_S128x128_128_0 := by
  show StableHlo.after hostOps1 (W2 m ρ c) (Proc.devRef .tc main_v43) = _
  simp only [hostOps1]
  after_results_simp <;> rfl

set_option maxHeartbeats 8000000 in
theorem entry1_bias (c : Dev nD) :
    V3 m ρ c main_v44 = shapeCast S1x128 (W2 m ρ c (Proc.devRef .tc main_arg5)) shapeCasts_S128_S1x128 := by
  show StableHlo.after hostOps1 (W2 m ρ c) (Proc.devRef .tc main_v44) = _
  simp only [hostOps1]
  after_results_simp <;> rfl

/-- A buffer the first region does not touch holds after it what the first host stretch left. -/
theorem past_first (c : Dev nD) (b : Ref sig .tc) (hb : ∀ w, Pipeline.arrRef spec0 w ≠ b)
    (X : Buf (Elt Ideal) ((c : Thread nD τ).loc b)) (h : W1 m ρ c (Proc.devRef .tc b) = X) :
    W2 m ρ c (Proc.devRef .tc b) = X :=
  (W2_of_ne m ρ c b hb).trans h

/-- Rows 0–127 and rows 128–255 of the node weight, read at (k, j). -/
theorem upper_at (W : FVec Ideal S256x128 .f32) (k j : Fin 128) :
    extractStridedSlice S128x128 ![0, 0] W slices_S256x128_S128x128_0_0 (ix2 k j) = W (ix2 (lo k) j) :=
  extractStridedSlice_apply ![0, 0] W slices_S256x128_S128x128_0_0 (ix2 k j) (ix2 (lo k) j) (fun a => by
    match a with
    | ⟨0, _⟩ => show k.val = 0 + k.val; omega
    | ⟨1, _⟩ => show j.val = 0 + j.val; omega)
theorem lower_at (W : FVec Ideal S256x128 .f32) (k j : Fin 128) :
    extractStridedSlice S128x128 ![128, 0] W slices_S256x128_S128x128_128_0 (ix2 k j) = W (ix2 (hi k) j) :=
  extractStridedSlice_apply ![128, 0] W slices_S256x128_S128x128_128_0 (ix2 k j) (ix2 (hi k) j) (fun a => by
    match a with
    | ⟨0, _⟩ => show 128 + k.val = 128 + k.val; rfl
    | ⟨1, _⟩ => show j.val = 0 + j.val; omega)

/-! ## The result -/

/-- The whole program as one function of the six arguments. -/
def result (x : FVec Ideal S50000x128 .f32) (e : IVec S2x400000 32) (We : FVec Ideal S128x128 .f32) (be : FVec Ideal S128 .f32)
    (Wn : FVec Ideal S256x128 .f32) (bn : FVec Ideal S128 .f32) : FVec Ideal S50000x128 .f32 :=
  nodeLayer x (segMean (F := Ideal) (edgeLayer (segMean (F := Ideal) x (idRow1 e) (idRow0 e)) We be) (idRow0 e) (idRow1 e)) Wn bn

/-- The result array at the last segment boundary is that function of the arguments as launched. -/
theorem result_eq (c : Dev nD) :
    W4 m ρ c (Proc.devRef .tc main_v45)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (W4_arr m ρ c 5).trans ((Node.final (V3 m ρ) c).trans ?_)
  rw [entry1_x, entry1_mean, entry1_upper, entry1_lower, entry1_bias, edge_out,
    past_first m ρ c main_arg0 (by decide) _ (first_arg0 m ρ c), past_first m ρ c main_arg4 (by decide) _ (first_arg4 m ρ c),
    past_first m ρ c main_arg5 (by decide) _ (first_arg5 m ρ c), past_first m ρ c main_v1 (by decide) _ (first_ids0 m ρ c),
    past_first m ρ c main_v3 (by decide) _ (first_ids1 m ρ c)]
  exact nodeRows_eq _ _ _ _ _ _ _ (upper_at _) (lower_at _) (row_of_vec _)

end Cert.KernelIdeal.Whole

end
-- ==== Proof.RefLayers.lean ====
/-
  Two stages of the reference program, read entry by entry as the specification's dense layers, at the ideal values
  (extended reals, every operation exact).

  The edge stage is `max (h · W + b) 0`: the matrix product's entry (r, j) is the sum over k of `h (r, k) * W (k, j)`,
  the bias vector is spread along the rows, and the lower bound is the zero constant spread over the whole array.

  The node stage multiplies the row `[x r | nf r]` of 256 entries with a [256, 128] weight, adds the bias, and divides
  each row by its Euclidean norm. Column k < 128 of the joined array is column k of `x`, column 128 + k is column k of
  `nf`; the sum over the 256 joined columns splits into the sum over the first 128 and the sum over the last 128. The
  row norm is the square root of zero plus the sum over the 128 columns of the squared entries.
-/
import proofs.«153247_j10376640987275_1_alg».proof.Proof.Gen.ReferenceIdeal.Read
import proofs.«153247_j10376640987275_1_alg».proof.Proof.Layers

noncomputable section
namespace Cert.ReferenceIdeal.Dense
open Cert.ReferenceIdeal Cert.ReferenceIdeal.Read Cert.Layers Idealize.ShloMosaic Idealize.ShloMosaic.ValueIdx

theorem ref_edge (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) :
    val_main_v26 (F := Ideal) x0 x1 x2 x3 = edgeLayer (val_main_v21 (F := Ideal) x0 x1) x2 x3 := by
  funext i
  rw [val_main_v26_apply, val_main_v25_apply, val_main_v22_apply, val_main_v24_apply, val_main_v23_apply,
    val_main_call0_v0_apply, val_main_call0_cst_apply]
  generalize val_main_v21 (F := Ideal) x0 x1 = h
  -- the product's operands at (r, k) and (k, j); the bias at j
  have el : ∀ k : Fin 128, lidx_main_v22 i k = ix2 (row i) k := fun k =>
    funext fun a => Fin.ext (by match a with | ⟨0, _⟩ => rfl | ⟨1, _⟩ => rfl)
  have er : ∀ k : Fin 128, ridx_main_v22 i k = ix2 k (col i) := fun k =>
    funext fun a => Fin.ext (by match a with | ⟨0, _⟩ => rfl | ⟨1, _⟩ => rfl)
  have eb : idx_main_v23 (idx_main_v24 i) = ix1 (col i) :=
    funext fun a => Fin.ext (by match a with | ⟨0, _⟩ => rfl)
  simp only [el, er, eb, Ideal.addf_def, Ideal.maximumf_def, Ideal.ofBits_def, Ideal.ofBits_zero_f32]
  rfl

/-- Column k of the first 128 columns of the joined array `[x | nf]` is column k of `x`. -/
theorem joined_lo (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (r : Fin 50000) (k : Fin 128) :
    val_main_v45 (F := Ideal) x0 x1 x2 x3 (ix2 r (lo k)) = x0 (ix2 r k) := by
  unfold val_main_v45
  exact concatenate_pair_apply_left 1 x0 _ Gen.concatenates_S50000x128_S50000x128_S50000x256_d1 (ix2 r (lo k)) rfl (ix2 r k)
    (fun b => by match b with | ⟨0, _⟩ => rfl | ⟨1, _⟩ => rfl)

/-- Column 128 + k of the joined array `[x | nf]` is column k of `nf`. -/
theorem joined_hi (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (r : Fin 50000) (k : Fin 128) :
    val_main_v45 (F := Ideal) x0 x1 x2 x3 (ix2 r (hi k)) = val_main_v44 (F := Ideal) x0 x1 x2 x3 (ix2 r k) := by
  unfold val_main_v45
  generalize val_main_v44 (F := Ideal) x0 x1 x2 x3 = nf
  exact concatenate_pair_apply_right 1 x0 nf Gen.concatenates_S50000x128_S50000x128_S50000x256_d1 (ix2 r (hi k)) rfl rfl (ix2 r k)
    (fun b hb => by
      match b with
      | ⟨0, _⟩ => rfl
      | ⟨1, _⟩ => exact absurd rfl hb)
    (by show k.val + 128 = 128 + k.val; omega)

/-- Entry (r, j) of the stacked product plus the bias, before the division by the row norm. -/
theorem stacked_at (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal))
    (r : Fin 50000) (j : Fin 128) :
    val_main_v49 (F := Ideal) x0 x1 x2 x3 x4 x5 (ix2 r j)
      = stacked x0 (val_main_v44 (F := Ideal) x0 x1 x2 x3) x4 x5 r j := by
  rw [val_main_v49_apply, val_main_v46_apply, val_main_v48_apply, val_main_v47_apply, sum_halves]
  -- the joined array's row r at a column of either half; the weight's row of either half at column j; the bias at j
  have eL : ∀ k : Fin 128, lidx_main_v46 (ix2 r j) (lo k) = ix2 r (lo k) := fun k =>
    funext fun a => Fin.ext (by match a with | ⟨0, _⟩ => rfl | ⟨1, _⟩ => rfl)
  have eH : ∀ k : Fin 128, lidx_main_v46 (ix2 r j) (hi k) = ix2 r (hi k) := fun k =>
    funext fun a => Fin.ext (by match a with | ⟨0, _⟩ => rfl | ⟨1, _⟩ => rfl)
  have eRl : ∀ k : Fin 128, ridx_main_v46 (ix2 r j) (lo k) = ix2 (lo k) j := fun k =>
    funext fun a => Fin.ext (by match a with | ⟨0, _⟩ => rfl | ⟨1, _⟩ => rfl)
  have eRh : ∀ k : Fin 128, ridx_main_v46 (ix2 r j) (hi k) = ix2 (hi k) j := fun k =>
    funext fun a => Fin.ext (by match a with | ⟨0, _⟩ => rfl | ⟨1, _⟩ => rfl)
  have eb : idx_main_v47 (idx_main_v48 (ix2 r j)) = ix1 j :=
    funext fun a => Fin.ext (by match a with | ⟨0, _⟩ => rfl)
  simp only [eL, eH, eRl, eRh, eb, joined_lo, joined_hi, Ideal.addf_def]
  rfl

theorem ref_node (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    val_main_v52 (F := Ideal) x0 x1 x2 x3 x4 x5 = nodeLayer x0 (val_main_v44 (F := Ideal) x0 x1 x2 x3) x4 x5 := by
  funext i
  rw [val_main_v52_apply, val_main_v51_apply, val_main_v50_apply, val_main_call1_v2_apply, val_main_call1_v1_apply,
    val_main_call1_cst_apply]
  simp only [val_main_call1_v0_apply]
  -- the entry itself, and the entries of its row
  have h0 : val_main_v49 (F := Ideal) x0 x1 x2 x3 x4 x5 i
      = stacked x0 (val_main_v44 (F := Ideal) x0 x1 x2 x3) x4 x5 (row i) (col i) :=
    (congrArg (val_main_v49 (F := Ideal) x0 x1 x2 x3 x4 x5) (eq_row_col i)).trans (stacked_at x0 x1 x2 x3 x4 x5 (row i) (col i))
  have ek : ∀ k : Fin 128, idx_main_call1_v1 (idx_main_call1_v2 (idx_main_v51 i)) k = ix2 (row i) k := fun k =>
    funext fun a => Fin.ext (by match a with | ⟨0, _⟩ => rfl | ⟨1, _⟩ => rfl)
  simp only [ek, stacked_at, h0, Ideal.hostDivf_def, Ideal.hostUnary_sqrt_def, Ideal.mulf_def, Ideal.ofBits_def,
    Ideal.ofBits_zero_f32, zero_add]
  rfl

end Cert.ReferenceIdeal.Dense
end
-- ==== Proof.Same.lean ====
/-
  The reference program computes the same function of the six arguments as the kernel's program.

  Its last stage is the node layer of `x` and of a segment mean; that segment mean is taken of its edge stage, which is the
  edge layer of the first segment mean. The two segment means are, operation for operation, the chain the kernel's
  program runs on the host (the same gather, scatter-add, clipped count and division over the same id rows), so they are
  the same function; nothing of the chain is opened.
-/
import proofs.«153247_j10376640987275_1_alg».proof.Proof.Whole
import proofs.«153247_j10376640987275_1_alg».proof.Proof.RefLayers

noncomputable section

namespace Cert.ReferenceIdeal.Same

open Cert.ReferenceIdeal Cert.ReferenceIdeal.Read Cert.Layers Idealize.ShloMosaic
open Cert.KernelIdeal.Whole (segMean idRow0 idRow1 result)

/-- The reference's first mean over segments is the chain applied to `x`, gathering by id row 1 and adding by id row 0. -/
theorem mean_first (x0 : (⟨S50000x128, .f32⟩ : BufTy).Contents (Elt Ideal)) (x1 : (⟨S2x400000, .i32⟩ : BufTy).Contents (Elt Ideal)) :
    val_main_v21 (F := Ideal) x0 x1 = segMean (F := Ideal) x0 (idRow1 x1) (idRow0 x1) := rfl

/-- Its second mean over segments is the chain applied to its edge stage, gathering by id row 0 and adding by id row 1. -/
theorem mean_second (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal)) :
    val_main_v44 (F := Ideal) x0 x1 x2 x3 = segMean (F := Ideal) (val_main_v26 (F := Ideal) x0 x1 x2 x3) (idRow0 x1) (idRow1 x1) := rfl

/-- The reference's result is the kernel program's function of the arguments. -/
theorem reference_eq (x0 : (⟨S50000x128, .f32⟩ : BufTy).Contents (Elt Ideal)) (x1 : (⟨S2x400000, .i32⟩ : BufTy).Contents (Elt Ideal))
    (x2 : (⟨S128x128, .f32⟩ : BufTy).Contents (Elt Ideal)) (x3 : (⟨S128, .f32⟩ : BufTy).Contents (Elt Ideal))
    (x4 : (⟨S256x128, .f32⟩ : BufTy).Contents (Elt Ideal)) (x5 : (⟨S128, .f32⟩ : BufTy).Contents (Elt Ideal)) :
    val_main_v52 (F := Ideal) x0 x1 x2 x3 x4 x5 = result x0 x1 x2 x3 x4 x5 := by
  rw [Dense.ref_node, mean_second, Dense.ref_edge, mean_first]
  rfl

end Cert.ReferenceIdeal.Same

end
-- ==== Proof.lean ====
/-
  The certificate of the hypergraph convolution: a gather and scatter-mean of node rows into hyperedges, a dense layer with
  a lower clip at zero, a gather and scatter-mean back to the nodes, and a dense layer on the node rows joined with the means,
  each row divided by its Euclidean norm — the kernel's program with the two dense layers computed block by block on ten
  blocks of 5000 rows, against the plain array program.

  Over the extended reals both programs compute one function of the six arguments (`Cert.KernelIdeal.Whole.result`):
  the two gather and scatter-mean chains are the same operations on both sides and are carried as one function; a dense layer
  computed on a block of rows is the block of the layer computed on all rows, a matrix product into a zero accumulator is
  the plain sum of products, a change of float format is the identity, and the product with the joined array [x | nf]
  is the sum of the products with its two halves, since addition of extended reals is commutative and associative. No
  finiteness of the inputs is used.
  The three frames: the two kernel programs' are the generated frames; the reference's is its run with the result dropped.
  The idealization rewrote no operation, so that conjunct is trivial.
-/
import proofs.«153247_j10376640987275_1_alg».proof.Defs
import proofs.«153247_j10376640987275_1_alg».proof.Proof.Gen.Kernel.Frame
import proofs.«153247_j10376640987275_1_alg».proof.Proof.Gen.KernelIdeal.Frame
import proofs.«153247_j10376640987275_1_alg».proof.Proof.Gen.ReferenceIdeal.Run
import proofs.«153247_j10376640987275_1_alg».proof.Proof.Gen.Pre_finite_inputs
import proofs.«153247_j10376640987275_1_alg».proof.Proof.KernelRun
import proofs.«153247_j10376640987275_1_alg».proof.Proof.Whole
import proofs.«153247_j10376640987275_1_alg».proof.Proof.Same

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the same function of the arguments, which agree. -/
theorem algebraic : Cert.algebraic_KernelIdeal_ReferenceIdeal := by
  intro m ρ m' ρ' _ hagree
  refine ⟨_, (θ_run Cert.KernelIdeal.defs _ _).mono
    (fun _ h c => ⟨(h c).1.trans (Cert.KernelIdeal.Whole.result_eq m ρ c), (h c).2⟩) (Cert.KernelIdeal.Named.run_named m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2.1, (hagree c).2.2.2.2.2]
  exact Cert.ReferenceIdeal.Same.reference_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
